-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S65536x512 .f32) (main_arg1 : FVec F S512x512 .f32) (main_arg2 : FVec F S512 .f32) (main_arg3 : FVec F S1024x512 .f32) (main_arg4 : FVec F S1024 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1536x512 : Shape := ⟨2, ![1536, 512]⟩
abbrev S512x1536 : Shape := ⟨2, ![512, 1536]⟩
abbrev S1536 : Shape := ⟨1, ![1536]⟩
abbrev S8x65536x64 : Shape := ⟨3, ![8, 65536, 64]⟩
abbrev S8x1024x64 : Shape := ⟨3, ![8, 1024, 64]⟩
abbrev S1024x1536 : Shape := ⟨2, ![1024, 1536]⟩
abbrev S1x1536 : Shape := ⟨2, ![1, 1536]⟩
abbrev S1024x1024 : Shape := ⟨2, ![1024, 1024]⟩
abbrev S1024x64 : Shape := ⟨2, ![1024, 64]⟩
abbrev S1x1024x64 : Shape := ⟨3, ![1, 1024, 64]⟩

abbrev nBuf : Space → Nat
  | .hbm => 11
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024, .f32⟩
  | .hbm, ⟨5, _⟩ => ⟨S1536x512, .f32⟩
  | .hbm, ⟨6, _⟩ => ⟨S512x1536, .f32⟩
  | .hbm, ⟨7, _⟩ => ⟨S1536, .f32⟩
  | .hbm, ⟨8, _⟩ => ⟨S8x65536x64, .f32⟩
  | .hbm, ⟨9, _⟩ => ⟨S8x65536x64, .f32⟩
  | .hbm, ⟨10, _⟩ => ⟨S8x65536x64, .f32⟩
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S1536, .f32⟩
  | .local _ .vmem, ⟨4, _⟩ => ⟨S8x1024x64, .f32⟩
  | .local _ .vmem, ⟨5, _⟩ => ⟨S8x1024x64, .f32⟩
  | .local _ .vmem, ⟨6, _⟩ => ⟨S8x1024x64, .f32⟩
  | .local _ .vmem, ⟨7, _⟩ => ⟨S8x1024x64, .f32⟩
  | .local _ .vmem, ⟨8, _⟩ => ⟨S8x1024x64, .f32⟩
  | .local _ .vmem, ⟨9, _⟩ => ⟨S8x1024x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x512_S1024x512_S1536x512_d0 : Shape.Concatenates [S512x512, S1024x512] S1536x512 0
  transposes_S1536x512_S512x1536_1_0 : S1536x512.Transposes [1, 0] S512x1536
  concatenates_S512_S1024_S1536_d0 : Shape.Concatenates [S512, S1024] S1536 0
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  bitsLt_bf16_f32 : FTy.bits .bf16 < FTy.bits .f32
  shapeCasts_S1536_S1x1536 : S1536.ShapeCasts S1x1536
  broadcasts_S1x1536_S1024x1536 : S1x1536.Broadcasts S1024x1536
  slices_S1024x1536_o0_0_S1024x512 : S1024x1536.Slices ![0, 0] S1024x512
  slices_S1024x1536_o0_512_S1024x1024 : S1024x1536.Slices ![0, 512] S1024x1024
  slices_S1024x512_o0_0_S1024x64 : S1024x512.Slices ![0, 0] S1024x64
  inb_S8x1024x64_S1x1024x64_0_0_0 : ∀ a, (![0, 0, 0] : Fin 3 → Nat) a + S1x1024x64.size a ≤ S8x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  slices_S1024x1024_o0_0_S1024x64 : S1024x1024.Slices ![0, 0] S1024x64
  slices_S1024x1024_o0_512_S1024x64 : S1024x1024.Slices ![0, 512] S1024x64
  slices_S1024x512_o0_64_S1024x64 : S1024x512.Slices ![0, 64] S1024x64
  inb_S8x1024x64_S1x1024x64_1_0_0 : ∀ a, (![1, 0, 0] : Fin 3 → Nat) a + S1x1024x64.size a ≤ S8x1024x64.size a
  slices_S1024x1024_o0_64_S1024x64 : S1024x1024.Slices ![0, 64] S1024x64
  slices_S1024x1024_o0_576_S1024x64 : S1024x1024.Slices ![0, 576] S1024x64
  slices_S1024x512_o0_128_S1024x64 : S1024x512.Slices ![0, 128] S1024x64
  inb_S8x1024x64_S1x1024x64_2_0_0 : ∀ a, (![2, 0, 0] : Fin 3 → Nat) a + S1x1024x64.size a ≤ S8x1024x64.size a
  slices_S1024x1024_o0_128_S1024x64 : S1024x1024.Slices ![0, 128] S1024x64
  slices_S1024x1024_o0_640_S1024x64 : S1024x1024.Slices ![0, 640] S1024x64
  slices_S1024x512_o0_192_S1024x64 : S1024x512.Slices ![0, 192] S1024x64
  inb_S8x1024x64_S1x1024x64_3_0_0 : ∀ a, (![3, 0, 0] : Fin 3 → Nat) a + S1x1024x64.size a ≤ S8x1024x64.size a
  slices_S1024x1024_o0_192_S1024x64 : S1024x1024.Slices ![0, 192] S1024x64
  slices_S1024x1024_o0_704_S1024x64 : S1024x1024.Slices ![0, 704] S1024x64
  slices_S1024x512_o0_256_S1024x64 : S1024x512.Slices ![0, 256] S1024x64
  inb_S8x1024x64_S1x1024x64_4_0_0 : ∀ a, (![4, 0, 0] : Fin 3 → Nat) a + S1x1024x64.size a ≤ S8x1024x64.size a
  slices_S1024x1024_o0_256_S1024x64 : S1024x1024.Slices ![0, 256] S1024x64
  slices_S1024x1024_o0_768_S1024x64 : S1024x1024.Slices ![0, 768] S1024x64
  slices_S1024x512_o0_320_S1024x64 : S1024x512.Slices ![0, 320] S1024x64
  inb_S8x1024x64_S1x1024x64_5_0_0 : ∀ a, (![5, 0, 0] : Fin 3 → Nat) a + S1x1024x64.size a ≤ S8x1024x64.size a
  slices_S1024x1024_o0_320_S1024x64 : S1024x1024.Slices ![0, 320] S1024x64
  slices_S1024x1024_o0_832_S1024x64 : S1024x1024.Slices ![0, 832] S1024x64
  slices_S1024x512_o0_384_S1024x64 : S1024x512.Slices ![0, 384] S1024x64
  inb_S8x1024x64_S1x1024x64_6_0_0 : ∀ a, (![6, 0, 0] : Fin 3 → Nat) a + S1x1024x64.size a ≤ S8x1024x64.size a
  slices_S1024x1024_o0_384_S1024x64 : S1024x1024.Slices ![0, 384] S1024x64
  slices_S1024x1024_o0_896_S1024x64 : S1024x1024.Slices ![0, 896] S1024x64
  slices_S1024x512_o0_448_S1024x64 : S1024x512.Slices ![0, 448] S1024x64
  inb_S8x1024x64_S1x1024x64_7_0_0 : ∀ a, (![7, 0, 0] : Fin 3 → Nat) a + S1x1024x64.size a ≤ S8x1024x64.size a
  slices_S1024x1024_o0_448_S1024x64 : S1024x1024.Slices ![0, 448] S1024x64
  slices_S1024x1024_o0_960_S1024x64 : S1024x1024.Slices ![0, 960] S1024x64
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024x64.size a ≤ S8x65536x64.size a
  hwx0_3 : ∀ i : grid0.Coords, EltTy.bits .f32 = 32 ∨ (Rect.block (s := S8x65536x64) S8x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x64.size a ≤ S8x65536x64.size a
  hwx0_4 : ∀ i : grid0.Coords, EltTy.bits .f32 = 32 ∨ (Rect.block (s := S8x65536x64) S8x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024x64.size a ≤ S8x65536x64.size a
  hwx0_5 : ∀ i : grid0.Coords, EltTy.bits .f32 = 32 ∨ (Rect.block (s := S8x65536x64) S8x1024x64.size (cc0_transform_5 i) (hinb0_5 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S8x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S8x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S8x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x512 : Shape := ⟨2, ![1, 512]⟩
abbrev S65536x8x64 : Shape := ⟨3, ![65536, 8, 64]⟩
abbrev S8x65536x64 : Shape := ⟨3, ![8, 65536, 64]⟩
abbrev S512x1024 : Shape := ⟨2, ![512, 1024]⟩
abbrev S65536x1024 : Shape := ⟨2, ![65536, 1024]⟩
abbrev S1x1024 : Shape := ⟨2, ![1, 1024]⟩
abbrev S65536x2x8x64 : Shape := ⟨4, ![65536, 2, 8, 64]⟩
abbrev S65536x1x8x64 : Shape := ⟨4, ![65536, 1, 8, 64]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1024, .f32⟩
  | .hbm, ⟨5, _⟩ => ⟨S512x512, .f32⟩
  | .hbm, ⟨6, _⟩ => ⟨S65536x512, .f32⟩
  | .hbm, ⟨7, _⟩ => ⟨S1x512, .f32⟩
  | .hbm, ⟨8, _⟩ => ⟨S65536x512, .f32⟩
  | .hbm, ⟨9, _⟩ => ⟨S65536x512, .f32⟩
  | .hbm, ⟨10, _⟩ => ⟨S65536x8x64, .f32⟩
  | .hbm, ⟨11, _⟩ => ⟨S8x65536x64, .f32⟩
  | .hbm, ⟨12, _⟩ => ⟨S512x1024, .f32⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S65536x1024, .f32⟩
  | .hbm, ⟨17, _⟩ => ⟨S65536x2x8x64, .f32⟩
  | .hbm, ⟨18, _⟩ => ⟨S65536x1x8x64, .f32⟩
  | .hbm, ⟨19, _⟩ => ⟨S65536x8x64, .f32⟩
  | .hbm, ⟨20, _⟩ => ⟨S8x65536x64, .f32⟩
  | .hbm, ⟨21, _⟩ => ⟨S65536x1x8x64, .f32⟩
  | .hbm, ⟨22, _⟩ => ⟨S65536x8x64, .f32⟩
  | .hbm, ⟨23, _⟩ => ⟨S8x65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S65536x8x64 : S65536x512.ShapeCasts S65536x8x64
  transposes_S65536x8x64_S8x65536x64_1_0_2 : S65536x8x64.Transposes [1, 0, 2] S8x65536x64
  transposes_S1024x512_S512x1024_1_0 : S1024x512.Transposes [1, 0] S512x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x2x8x64 : S65536x1024.ShapeCasts S65536x2x8x64
  slices_S65536x2x8x64_S65536x1x8x64_0_0_0_0 : S65536x2x8x64.Slices ![0, 0, 0, 0] S65536x1x8x64
  shapeCasts_S65536x1x8x64_S65536x8x64 : S65536x1x8x64.ShapeCasts S65536x8x64
  slices_S65536x2x8x64_S65536x1x8x64_0_1_0_0 : S65536x2x8x64.Slices ![0, 1, 0, 0] S65536x1x8x64
  dot_S65536x512_S512x512_S65536x512_1_0_0_1_n_n_wf : DotDims.WF S65536x512 S512x512 S65536x512 [1] [0] [0] [1] [] []
  dot_S65536x512_S512x1024_S65536x1024_1_0_0_1_n_n_wf : DotDims.WF S65536x512 S512x1024 S65536x1024 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf

class Facts : Prop extends Facts₀ where

variable [Facts]
-- ==== Proof.HeadProjection.lean ====
/-
  What the three results hold, as functions of the five arguments.

  With x : [65536, 512], a weight W of J rows and 512 columns and a bias b of J entries, entry (n, j) of
  x·Wᵀ + b is  ∑ₖ x(n, k) · W(j, k) + b(j).  The results are laid out head-major: entry (h, n, d) of
  the queries is entry (n, 64·h + d) of x·W_qᵀ + b_q; of the keys, entry (n, 64·h + d) of x·W_kvᵀ + b_kv; of the
  values, entry (n, 512 + 64·h + d) of the same.
-/
import Idealize.ShloMosaic.PureOps.Ideal
import Idealize.ShloMosaic.Lib.ValueIdx

noncomputable section

namespace Cert.HeadProjection

open Idealize.ShloMosaic Idealize.ShloMosaic.ValueIdx

/-- Column of head h, lane d, in the query projection. -/
def headCol (h : Fin 8) (d : Fin 64) : Fin 512 := ⟨h.val * 64 + d.val, by have := h.isLt; have := d.isLt; omega⟩
/-- Column of head h, lane d, in the key half of the key-value projection. -/
def keyCol (h : Fin 8) (d : Fin 64) : Fin 1024 := ⟨h.val * 64 + d.val, by have := h.isLt; have := d.isLt; omega⟩
/-- Column of head h, lane d, in the value half of the key-value projection. -/
def valueCol (h : Fin 8) (d : Fin 64) : Fin 1024 := ⟨512 + h.val * 64 + d.val, by have := h.isLt; have := d.isLt; omega⟩

/-- Entry (n, j) of x·Wᵀ + b for the 512-row weight. -/
def affineQ (x : (⟨2, ![65536, 512]⟩ : Shape).Idx → EReal) (W : (⟨2, ![512, 512]⟩ : Shape).Idx → EReal)
    (b : (⟨1, ![512]⟩ : Shape).Idx → EReal) (n : Fin 65536) (j : Fin 512) : EReal :=
  (∑ k : Fin 512, x (ix2 n k) * W (ix2 j k)) + b (ix1 j)

/-- Entry (n, j) of x·Wᵀ + b for the 1024-row weight. -/
def affineKV (x : (⟨2, ![65536, 512]⟩ : Shape).Idx → EReal) (W : (⟨2, ![1024, 512]⟩ : Shape).Idx → EReal)
    (b : (⟨1, ![1024]⟩ : Shape).Idx → EReal) (n : Fin 65536) (j : Fin 1024) : EReal :=
  (∑ k : Fin 512, x (ix2 n k) * W (ix2 j k)) + b (ix1 j)

/-- The queries, head-major. -/
def queries (x : (⟨2, ![65536, 512]⟩ : Shape).Idx → EReal) (Wq : (⟨2, ![512, 512]⟩ : Shape).Idx → EReal)
    (bq : (⟨1, ![512]⟩ : Shape).Idx → EReal) : (⟨3, ![8, 65536, 64]⟩ : Shape).Idx → EReal :=
  fun i => affineQ x Wq bq ⟨(i 1).val, (i 1).isLt⟩ (headCol ⟨(i 0).val, (i 0).isLt⟩ ⟨(i 2).val, (i 2).isLt⟩)

/-- The keys, head-major. -/
def keys (x : (⟨2, ![65536, 512]⟩ : Shape).Idx → EReal) (Wkv : (⟨2, ![1024, 512]⟩ : Shape).Idx → EReal)
    (bkv : (⟨1, ![1024]⟩ : Shape).Idx → EReal) : (⟨3, ![8, 65536, 64]⟩ : Shape).Idx → EReal :=
  fun i => affineKV x Wkv bkv ⟨(i 1).val, (i 1).isLt⟩ (keyCol ⟨(i 0).val, (i 0).isLt⟩ ⟨(i 2).val, (i 2).isLt⟩)

/-- The values, head-major. -/
def values (x : (⟨2, ![65536, 512]⟩ : Shape).Idx → EReal) (Wkv : (⟨2, ![1024, 512]⟩ : Shape).Idx → EReal)
    (bkv : (⟨1, ![1024]⟩ : Shape).Idx → EReal) : (⟨3, ![8, 65536, 64]⟩ : Shape).Idx → EReal :=
  fun i => affineKV x Wkv bkv ⟨(i 1).val, (i 1).isLt⟩ (valueCol ⟨(i 0).val, (i 0).isLt⟩ ⟨(i 2).val, (i 2).isLt⟩)

end Cert.HeadProjection

end
-- ==== Proof.FusedProjection.lean ====
/-
  The fused projection the kernel body computes, read at one entry.

  At the exact instance a change of float format is the identity and the matrix unit's product into a zero
  accumulator is the plain sum of products, so entry (r, c) of the body's [1024, 1536] value is
      ∑ₖ xb(r, k) · wt(k, c) + bias(c)
  for the three loaded blocks xb : [1024, 512], wt : [512, 1536], bias : [1536].
-/
import proofs.«133860_j17575006175259_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.FusedProjection

open Cert.KernelIdeal Cert.KernelIdeal.Gen Idealize.ShloMosaic Idealize.ShloMosaic.ValueIdx

/-! ## The product's operand indices, axis by axis -/

/-- The left operand's row is the output's row. -/
theorem lhs_row (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl

/-- The left operand's column is the contracted index. -/
theorem lhs_col (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q

/-- The right operand's row is the contracted index. -/
theorem rhs_row (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q

/-- The right operand's column is the output's column. -/
theorem rhs_col (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-! ## The product at an entry -/

/-- The matrix product into the zero accumulator, at entry (r, c), is the sum over k of lhs(r, k) · rhs(k, c). -/
theorem product_apply (lhs : FVec Ideal S1024x512 .bf16) (rhs : FVec Ideal S512x1536 .bf16) (r : Fin 1024) (c : Fin 1536) :
    matmul (F := Ideal) dot_S1024x512_S512x1536_S1024x1536_1_0_0_1_n_n none lhs rhs (constant S1024x1536 .f32 0x00000000#32) (ix2 r c)
      = ∑ k : Fin 512, lhs (ix2 r k) * rhs (ix2 k c) := by
  refine (Ideal.matmul_constant_zero_apply dot_S1024x512_S512x1536_S1024x1536_1_0_0_1_n_n none lhs rhs (ix2 r c)).trans ?_
  rw [← Equiv.sum_comp (ValueIdx.contrEquiv1 dot_S1024x512_S512x1536_S1024x1536_1_0_0_1_n_n 512 rfl rfl).symm]
  refine Finset.sum_congr rfl fun k _ => ?_
  have hk := ValueIdx.contrEquiv1_symm_val dot_S1024x512_S512x1536_S1024x1536_1_0_0_1_n_n 512 rfl rfl k
  have el : dot_S1024x512_S512x1536_S1024x1536_1_0_0_1_n_n.lhsIdx (ix2 r c) ((ValueIdx.contrEquiv1 dot_S1024x512_S512x1536_S1024x1536_1_0_0_1_n_n 512 rfl rfl).symm k) = ix2 r k := funext fun a => Fin.ext (by
    match a with
    | ⟨0, _⟩ => exact lhs_row _ _
    | ⟨1, _⟩ => exact (lhs_col _ _).trans hk)
  have er : dot_S1024x512_S512x1536_S1024x1536_1_0_0_1_n_n.rhsIdx (ix2 r c) ((ValueIdx.contrEquiv1 dot_S1024x512_S512x1536_S1024x1536_1_0_0_1_n_n 512 rfl rfl).symm k) = ix2 k c := funext fun a => Fin.ext (by
    match a with
    | ⟨0, _⟩ => exact (rhs_row _ _).trans hk
    | ⟨1, _⟩ => exact rhs_col _ _)
  rw [el, er]

/-! ## The bias row at an entry -/

/-- The bias, viewed as one row and repeated down the 1024 rows, reads bias(c) at every (r, c). -/
theorem bias_apply (b : Vec Ideal S1536 .f32) (r : Fin 1024) (c : Fin 1536) :
    broadcastTo S1024x1536 (shapeCast S1x1536 (shapeCast S1536 b shapeCasts_S1536_S1536) shapeCasts_S1536_S1x1536) broadcasts_S1x1536_S1024x1536 (ix2 r c)
      = b (ix1 c) := by
  rw [shapeCast_self]
  refine (broadcastTo_apply _ broadcasts_S1x1536_S1024x1536 (ix2 r c) (ix2 (0 : Fin 1) c) (fun a => ?_)).trans ?_
  · match a with
    | ⟨0, _⟩ => show (0 : Nat) = if (1 : Nat) = 1 then 0 else _; rw [if_pos rfl]
    | ⟨1, _⟩ => show c.val = if (1536 : Nat) = 1 then 0 else c.val; rw [if_neg (by decide)]
  · refine shapeCast_apply b shapeCasts_S1536_S1x1536 (ix2 (0 : Fin 1) c) (ix1 c) ?_
    rw [Shape.rowMajor_val_one, Shape.rowMajor_val_two]
    show c.val = 0 * 1536 + c.val
    omega

/-! ## The body's value at an entry -/

/-- Entry (r, c) of the fused projection: the row of the activation block against the column of the weight
    block, plus the bias at that column. -/
theorem fused_apply (xb : Vec Ideal S1024x512 .f32) (wt : Vec Ideal S512x1536 .f32) (bias : Vec Ideal S1536 .f32)
    (r : Fin 1024) (c : Fin 1536) :
    k0_pay5 (F := Ideal) xb wt bias (ix2 r c) = (∑ k : Fin 512, xb (ix2 r k) * wt (ix2 k c)) + bias (ix1 c) := by
  unfold k0_pay5
  show (matmul (F := Ideal) dot_S1024x512_S512x1536_S1024x1536_1_0_0_1_n_n none (truncf .bf16 xb bitsLt_bf16_f32) (truncf .bf16 (shapeCast S512x1536 wt shapeCasts_S512x1536_S512x1536) bitsLt_bf16_f32) (constant S1024x1536 .f32 0x00000000#32) (ix2 r c))
      + (broadcastTo S1024x1536 (shapeCast S1x1536 (shapeCast S1536 bias shapeCasts_S1536_S1536) shapeCasts_S1536_S1x1536) broadcasts_S1x1536_S1024x1536 (ix2 r c)) = _
  rw [product_apply, bias_apply, shapeCast_self]
  rfl

end Cert.KernelIdeal.FusedProjection

end
-- ==== Proof.Operands.lean ====
/-
  The three input blocks of a grid point as entries of the argument arrays.

  Point t stages rows 1024·t … 1024·t + 1023 of the activations, and the whole of two arrays the host builds
  before the launch: the fused weight, transposed — column c of it is row c of W_q stacked on W_kv — and the
  fused bias b_q followed by b_kv.
-/
import proofs.«133860_j17575006175259_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The arrays the host builds before the launch -/

/-- The weight array the region finds: W_q stacked on W_kv, transposed. -/
theorem fusedWeightT_eq (c : Dev nD) : (V m c main_v1 : S512x1536.Idx → Elt F .f32) =
    transpose S512x1536 [1, 0] (concatenate S1536x512 0 [⟨S512x512, m ((c : Thread nD τ).loc main_arg1)⟩, ⟨S1024x512, m ((c : Thread nD τ).loc main_arg3)⟩] concatenates_S512x512_S1024x512_S1536x512_d0) transposes_S1536x512_S512x1536_1_0 := by
  dsimp only [Gen.V, Gen.hostOps0]; after_results

/-- The bias array the region finds: b_q followed by b_kv. -/
theorem fusedBias_eq (c : Dev nD) : (V m c main_v2 : S1536.Idx → Elt F .f32) =
    concatenate S1536 0 [⟨S512, m ((c : Thread nD τ).loc main_arg2)⟩, ⟨S1024, m ((c : Thread nD τ).loc main_arg4)⟩] concatenates_S512_S1024_S1536_d0 := by
  dsimp only [Gen.V, Gen.hostOps0]; after_results

/-- A column of the fused weight below 512 is a row of W_q. -/
theorem fusedWeightT_q (c : Dev nD) (k : Fin 512) (col : Fin 1536) (j : Fin 512) (h : col.val = j.val) :
    (V m c main_v1 : S512x1536.Idx → Elt F .f32) (ix2 k col)
      = (m ((c : Thread nD τ).loc main_arg1) : S512x512.Idx → Elt F .f32) (ix2 j k) := by
  rw [fusedWeightT_eq]
  refine (transpose_apply [1, 0] _ transposes_S1536x512_S512x1536_1_0 (ix2 k col) (ix2 col k) (fun b => match b with
    | ⟨0, _⟩ => rfl
    | ⟨1, _⟩ => rfl)).trans ?_
  refine concatenate_pair_apply_left (t := S1536x512) (s₁ := S512x512) (s₂ := S1024x512) (0 : Fin 2) _ _ concatenates_S512x512_S1024x512_S1536x512_d0 (ix2 col k) rfl (ix2 j k) (fun b => ?_)
  match b with
  | ⟨0, _⟩ => exact h.symm
  | ⟨1, _⟩ => rfl

/-- A column of the fused weight from 512 on is a row of W_kv. -/
theorem fusedWeightT_kv (c : Dev nD) (k : Fin 512) (col : Fin 1536) (j : Fin 1024) (h : col.val = 512 + j.val) :
    (V m c main_v1 : S512x1536.Idx → Elt F .f32) (ix2 k col)
      = (m ((c : Thread nD τ).loc main_arg3) : S1024x512.Idx → Elt F .f32) (ix2 j k) := by
  rw [fusedWeightT_eq]
  refine (transpose_apply [1, 0] _ transposes_S1536x512_S512x1536_1_0 (ix2 k col) (ix2 col k) (fun b => match b with
    | ⟨0, _⟩ => rfl
    | ⟨1, _⟩ => rfl)).trans ?_
  refine concatenate_pair_apply_right (t := S1536x512) (s₁ := S512x512) (s₂ := S1024x512) (0 : Fin 2) _ _ concatenates_S512x512_S1024x512_S1536x512_d0 (ix2 col k) rfl rfl (ix2 j k) (fun b hb => ?_) ?_
  · match b with
    | ⟨0, _⟩ => exact absurd rfl hb
    | ⟨1, _⟩ => rfl
  · show j.val + 512 = col.val
    omega

/-- An entry of the fused bias below 512 is an entry of b_q. -/
theorem fusedBias_q (c : Dev nD) (col : Fin 1536) (j : Fin 512) (h : col.val = j.val) :
    (V m c main_v2 : S1536.Idx → Elt F .f32) (ix1 col)
      = (m ((c : Thread nD τ).loc main_arg2) : S512.Idx → Elt F .f32) (ix1 j) := by
  rw [fusedBias_eq]
  refine concatenate_pair_apply_left (t := S1536) (s₁ := S512) (s₂ := S1024) (0 : Fin 1) _ _ concatenates_S512_S1024_S1536_d0 (ix1 col) rfl (ix1 j) (fun b => ?_)
  match b with
  | ⟨0, _⟩ => exact h.symm

/-- An entry of the fused bias from 512 on is an entry of b_kv. -/
theorem fusedBias_kv (c : Dev nD) (col : Fin 1536) (j : Fin 1024) (h : col.val = 512 + j.val) :
    (V m c main_v2 : S1536.Idx → Elt F .f32) (ix1 col)
      = (m ((c : Thread nD τ).loc main_arg4) : S1024.Idx → Elt F .f32) (ix1 j) := by
  rw [fusedBias_eq]
  refine concatenate_pair_apply_right (t := S1536) (s₁ := S512) (s₂ := S1024) (0 : Fin 1) _ _ concatenates_S512_S1024_S1536_d0 (ix1 col) rfl rfl (ix1 j) (fun b hb => ?_) ?_
  · match b with
    | ⟨0, _⟩ => exact absurd rfl hb
  · show j.val + 512 = col.val
    omega

/-! ## The staged blocks -/

/-- The block indices of the three input windows over the grid: the activations move with the point, the other
    two stay at the origin. -/
theorem input_indices : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- The activation block of point t is rows 1024·t … of the argument. -/
theorem activation_block (c : Dev nD) (t : Fin cfg0.N) (r : Fin 1024) (k : Fin 512) (n : Fin 65536)
    (hn : n.val = 1024 * t.val + r.val) :
    (iblk m c 0 t : Vec F S1024x512 .f32) (ix2 r k)
      = (m ((c : Thread nD τ).loc main_arg0) : S65536x512.Idx → Elt F .f32) (ix2 n k) := by
  obtain ⟨e0, e1, -⟩ := input_indices t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 1024 + 1 * r.val = n.val; rw [e0, hn]; omega
  | ⟨1, _⟩ => show win0_0.index t (1 : Fin 2) * 512 + 1 * k.val = k.val; rw [e1]; omega

/-- The weight block of every point is the whole fused weight. -/
theorem weight_block (c : Dev nD) (t : Fin cfg0.N) (k : Fin 512) (col : Fin 1536) :
    (iblk m c 1 t : Vec F S512x1536 .f32) (ix2 k col) = (V m c main_v1 : S512x1536.Idx → Elt F .f32) (ix2 k col) := by
  obtain ⟨-, -, e0, e1, -⟩ := input_indices t
  unfold iblk
  rw [View.read_apply]
  show V m c main_v1 _ = V m c main_v1 _
  congr 1
  funext a
  apply Fin.ext
  match a with
  | ⟨0, _⟩ => show win0_1.index t (0 : Fin 2) * 512 + 1 * k.val = k.val; rw [e0]; omega
  | ⟨1, _⟩ => show win0_1.index t (1 : Fin 2) * 1536 + 1 * col.val = col.val; rw [e1]; omega

/-- The bias block of every point is the whole fused bias. -/
theorem bias_block (c : Dev nD) (t : Fin cfg0.N) (col : Fin 1536) :
    (iblk m c 2 t : Vec F S1536 .f32) (ix1 col) = (V m c main_v2 : S1536.Idx → Elt F .f32) (ix1 col) := by
  obtain ⟨-, -, -, -, e0⟩ := input_indices t
  unfold iblk
  rw [View.read_apply]
  show V m c main_v2 _ = V m c main_v2 _
  congr 1
  funext a
  apply Fin.ext
  match a with
  | ⟨0, _⟩ => show win0_2.index t (0 : Fin 1) * 1536 + 1 * col.val = col.val; rw [e0]; omega

end Cert.KernelIdeal.Operands

end
-- ==== Proof.KernelHeads.lean ====
/-
  The kernel's three result arrays, as functions of the arguments.

  Grid point t computes, for its 1024 rows, the fused projection x·[W_q; W_kv]ᵀ + [b_q; b_kv] and writes column
  block 64·h … 64·h + 63 of its first, second and third 512 columns to head h of the query, key and value blocks.
  So entry (h, r, d) of point t's query block is entry (1024·t + r, 64·h + d) of x·W_qᵀ + b_q, and likewise for
  keys and values with W_kv, b_kv (the value half 512 columns further on). The 64 row blocks tile each result.
-/
import proofs.«133860_j17575006175259_1_alg».proof.Proof.Gen.KernelIdeal.Value
import proofs.«133860_j17575006175259_1_alg».proof.Proof.FusedProjection
import proofs.«133860_j17575006175259_1_alg».proof.Proof.Operands
import proofs.«133860_j17575006175259_1_alg».proof.Proof.HeadProjection

noncomputable section

namespace Cert.KernelIdeal.Heads

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.HeadProjection Cert.KernelIdeal.FusedProjection Cert.KernelIdeal.Operands

variable (m : (ℓ : Loc nD τ sig) → Buf (Elt Ideal) ℓ) (ρ : Dev nD → PrngReg)

/-- The five arguments on core c, at their literal shapes. -/
abbrev argX (c : Dev nD) : S65536x512.Idx → EReal := m ((c : Thread nD τ).loc main_arg0)
abbrev argWq (c : Dev nD) : S512x512.Idx → EReal := m ((c : Thread nD τ).loc main_arg1)
abbrev argBq (c : Dev nD) : S512.Idx → EReal := m ((c : Thread nD τ).loc main_arg2)
abbrev argWkv (c : Dev nD) : S1024x512.Idx → EReal := m ((c : Thread nD τ).loc main_arg3)
abbrev argBkv (c : Dev nD) : S1024.Idx → EReal := m ((c : Thread nD τ).loc main_arg4)

theorem zeros2 : (![0, 0] : Fin 2 → Nat) = fun _ => 0 := funext fun a => by fin_cases a <;> rfl
theorem zeros1 : (![0] : Fin 1 → Nat) = fun _ => 0 := funext fun a => by fin_cases a <;> rfl

/-! ## One entry of the fused projection at a point -/

/-- Entry (r, col) of what point t computes: row 1024·t + r of x against column col of the fused weight, plus
    the fused bias at col. -/
theorem point_entry (c : Dev nD) (t : Fin cfg0.N) (r : Fin 1024) (col : Fin 1536) (n : Fin 65536)
    (hn : n.val = 1024 * t.val + r.val) :
    k0_pay5 (F := Ideal) (iblk m c 0 t) (iblk m c 1 t) (iblk m c 2 t) (ix2 r col)
      = (∑ k : Fin 512, argX m c (ix2 n k) * (V m c main_v1 : S512x1536.Idx → EReal) (ix2 k col))
        + (V m c main_v2 : S1536.Idx → EReal) (ix1 col) := by
  refine (fused_apply (iblk m c 0 t) (iblk m c 1 t) (iblk m c 2 t) r col).trans ?_
  refine congrArg₂ (· + ·) ?_ ?_
  · refine Finset.sum_congr rfl fun k _ => ?_
    exact congrArg₂ (· * ·) (activation_block m c t r k n hn) (weight_block m c t k col)
  · exact bias_block m c t col

/-! ## The output windows' block indices -/

/-- Each output window's block at point t is head-complete, rows 1024·t …, lane-complete. -/
theorem output_indices : ∀ t : Fin cfg0.N,
    win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

/-- The point whose row block holds row n. -/
theorem point_of_row (n : Nat) (hn : n < 65536) : ∃ t : Fin cfg0.N, t.val = n / 1024 :=
  ⟨⟨n / 1024, by show n / 1024 < grid0.N; rw [N_0]; omega⟩, rfl⟩

/-! ## Queries -/

/-- Entry (h, r, d) of point t's query block is the query at (h, 1024·t + r, d). -/
theorem query_block (c : Dev nD) (t : Fin cfg0.N) (y : S8x1024x64.Idx) (i : S8x65536x64.Idx)
    (h0 : (i 0).val = (y 0).val) (h1 : (i 1).val = 1024 * t.val + (y 1).val) (h2 : (i 2).val = (y 2).val) :
    out0_3 (F := Ideal) (iblk m c 0 t) (iblk m c 1 t) (iblk m c 2 t) y = queries (argX m c) (argWq m c) (argBq m c) i := by
  have hy0 : (y 0).val < 8 := (y 0).isLt
  have hy1 : (y 1).val < 1024 := (y 1).isLt
  have hy2 : (y 2).val < 64 := (y 2).isLt
  unfold out0_3
  refine (canon3_eq _ _ _ y).trans ?_
  simp only [View.ld_unit_zero (S := S1024x512) zeros2, View.ld_unit_zero (S := S512x1536) zeros2, View.ld_unit_zero (S := S1536) zeros1]
  have e : ix3_0 y = ix2 (⟨(y 1).val, hy1⟩ : Fin 1024) (⟨(y 0).val * 64 + (y 2).val, by omega⟩ : Fin 1536) := funext fun a => by
    match a with
    | ⟨0, _⟩ => rfl
    | ⟨1, _⟩ => rfl
  show k0_pay5 (F := Ideal) (iblk m c 0 t) (iblk m c 1 t) (iblk m c 2 t) (ix3_0 y) = _
  rw [e]
  refine (point_entry m c t _ _ ⟨(i 1).val, (i 1).isLt⟩ h1).trans ?_
  unfold queries affineQ
  refine congrArg₂ (· + ·) ?_ ?_
  · refine Finset.sum_congr rfl fun k _ => ?_
    exact congrArg (argX m c (ix2 _ k) * ·) (fusedWeightT_q m c k _ (headCol ⟨(i 0).val, (i 0).isLt⟩ ⟨(i 2).val, (i 2).isLt⟩)
      (by show (y 0).val * 64 + (y 2).val = (i 0).val * 64 + (i 2).val; omega))
  · exact fusedBias_q m c _ (headCol ⟨(i 0).val, (i 0).isLt⟩ ⟨(i 2).val, (i 2).isLt⟩)
      (by show (y 0).val * 64 + (y 2).val = (i 0).val * 64 + (i 2).val; omega)

/-- What point t writes back to the queries is its block of the query array. -/
theorem queries_flushed (c : Dev nD) (t : Fin cfg0.N) :
    (dats m 0 c).flushed 3 t = ((cfg0.win 3).blk t).view.read (Elt Ideal) (queries (argX m c) (argWq m c) (argBq m c) : S8x65536x64.Idx → EReal) := by
  obtain ⟨e0, e1, e2, -⟩ := output_indices t
  rw [flushed3]
  funext y
  show out0_3 (F := Ideal) (iblk m c 0 t) (iblk m c 1 t) (iblk m c 2 t) y = queries (argX m c) (argWq m c) (argBq m c) (((cfg0.win 3).blk t).view.emb y)
  refine query_block m c t y _ ?_ ?_ ?_
  · show win0_3.index t (0 : Fin 3) * 8 + 1 * (y 0).val = (y 0).val; rw [e0]; omega
  · show win0_3.index t (1 : Fin 3) * 1024 + 1 * (y 1).val = 1024 * t.val + (y 1).val; rw [e1]; omega
  · show win0_3.index t (2 : Fin 3) * 64 + 1 * (y 2).val = (y 2).val; rw [e2]; omega

/-- An index is in point t's query block iff each coordinate is in the block's range. -/
theorem mem_query_block (t : Fin cfg0.N) (i : S8x65536x64.Idx) :
    i ∈ ((cfg0.win 3).blk t).view.set ↔ ∀ a : Fin 3, win0_3.index t a * S8x1024x64.size a ≤ (i a).val ∧ (i a).val < win0_3.index t a * S8x1024x64.size a + S8x1024x64.size a := by
  show i ∈ ((View.whole main_v3_0).slice (win0_3.rect t)).set ↔ _
  rw [View.set_slice_whole, Rect.mem_set_unit]
  exact Iff.rfl

/-- Every index of the query array is in the block of the point that holds its row. -/
theorem queries_cover (i : S8x65536x64.Idx) : ∃ t : Fin cfg0.N, (cfg0.win 3).flush t = true ∧ i ∈ ((cfg0.win 3).blk t).view.set := by
  have hi0 : (i 0).val < 8 := (i 0).isLt
  have hi1 : (i 1).val < 65536 := (i 1).isLt
  have hi2 : (i 2).val < 64 := (i 2).isLt
  obtain ⟨t, ht⟩ := point_of_row (i 1).val hi1
  obtain ⟨e0, e1, e2, -⟩ := output_indices t
  refine ⟨t, flush0_3 t, ?_⟩
  rw [mem_query_block]
  intro a
  match a with
  | ⟨0, _⟩ => show win0_3.index t (0 : Fin 3) * 8 ≤ (i 0).val ∧ (i 0).val < win0_3.index t (0 : Fin 3) * 8 + 8; rw [e0]; omega
  | ⟨1, _⟩ => show win0_3.index t (1 : Fin 3) * 1024 ≤ (i 1).val ∧ (i 1).val < win0_3.index t (1 : Fin 3) * 1024 + 1024; rw [e1]; omega
  | ⟨2, _⟩ => show win0_3.index t (2 : Fin 3) * 64 ≤ (i 2).val ∧ (i 2).val < win0_3.index t (2 : Fin 3) * 64 + 64; rw [e2]; omega

/-- The query array after the run. -/
theorem queries_final (c : Dev nD) : (dats m 0 c).arrAt 3 cfg0.N = (queries (argX m c) (argWq m c) (argBq m c) : S8x65536x64.Idx → EReal) :=
  (dats m 0 c).arrAt_eq_of_cover 3 (queries (argX m c) (argWq m c) (argBq m c) : S8x65536x64.Idx → EReal) (fun t _ => queries_flushed m c t) queries_cover

/-! ## Keys -/

/-- Entry (h, r, d) of point t's key block is the key at (h, 1024·t + r, d). -/
theorem key_block (c : Dev nD) (t : Fin cfg0.N) (y : S8x1024x64.Idx) (i : S8x65536x64.Idx)
    (h0 : (i 0).val = (y 0).val) (h1 : (i 1).val = 1024 * t.val + (y 1).val) (h2 : (i 2).val = (y 2).val) :
    out0_4 (F := Ideal) (iblk m c 0 t) (iblk m c 1 t) (iblk m c 2 t) y = keys (argX m c) (argWkv m c) (argBkv m c) i := by
  have hy0 : (y 0).val < 8 := (y 0).isLt
  have hy1 : (y 1).val < 1024 := (y 1).isLt
  have hy2 : (y 2).val < 64 := (y 2).isLt
  unfold out0_4
  refine (canon4_eq _ _ _ y).trans ?_
  simp only [View.ld_unit_zero (S := S1024x512) zeros2, View.ld_unit_zero (S := S512x1536) zeros2, View.ld_unit_zero (S := S1536) zeros1]
  have e : ix4_0 y = ix2 (⟨(y 1).val, hy1⟩ : Fin 1024) (⟨(y 0).val * 64 + (y 2).val + 512, by omega⟩ : Fin 1536) := funext fun a => by
    match a with
    | ⟨0, _⟩ => rfl
    | ⟨1, _⟩ => rfl
  show k0_pay5 (F := Ideal) (iblk m c 0 t) (iblk m c 1 t) (iblk m c 2 t) (ix4_0 y) = _
  rw [e]
  refine (point_entry m c t _ _ ⟨(i 1).val, (i 1).isLt⟩ h1).trans ?_
  unfold keys affineKV
  refine congrArg₂ (· + ·) ?_ ?_
  · refine Finset.sum_congr rfl fun k _ => ?_
    exact congrArg (argX m c (ix2 _ k) * ·) (fusedWeightT_kv m c k _ (keyCol ⟨(i 0).val, (i 0).isLt⟩ ⟨(i 2).val, (i 2).isLt⟩)
      (by show (y 0).val * 64 + (y 2).val + 512 = 512 + ((i 0).val * 64 + (i 2).val); omega))
  · exact fusedBias_kv m c _ (keyCol ⟨(i 0).val, (i 0).isLt⟩ ⟨(i 2).val, (i 2).isLt⟩)
      (by show (y 0).val * 64 + (y 2).val + 512 = 512 + ((i 0).val * 64 + (i 2).val); omega)

/-- What point t writes back to the keys is its block of the key array. -/
theorem keys_flushed (c : Dev nD) (t : Fin cfg0.N) :
    (dats m 0 c).flushed 4 t = ((cfg0.win 4).blk t).view.read (Elt Ideal) (keys (argX m c) (argWkv m c) (argBkv m c) : S8x65536x64.Idx → EReal) := by
  obtain ⟨-, -, -, e0, e1, e2, -⟩ := output_indices t
  rw [flushed4]
  funext y
  show out0_4 (F := Ideal) (iblk m c 0 t) (iblk m c 1 t) (iblk m c 2 t) y = keys (argX m c) (argWkv m c) (argBkv m c) (((cfg0.win 4).blk t).view.emb y)
  refine key_block m c t y _ ?_ ?_ ?_
  · show win0_4.index t (0 : Fin 3) * 8 + 1 * (y 0).val = (y 0).val; rw [e0]; omega
  · show win0_4.index t (1 : Fin 3) * 1024 + 1 * (y 1).val = 1024 * t.val + (y 1).val; rw [e1]; omega
  · show win0_4.index t (2 : Fin 3) * 64 + 1 * (y 2).val = (y 2).val; rw [e2]; omega

/-- An index is in point t's key block iff each coordinate is in the block's range. -/
theorem mem_key_block (t : Fin cfg0.N) (i : S8x65536x64.Idx) :
    i ∈ ((cfg0.win 4).blk t).view.set ↔ ∀ a : Fin 3, win0_4.index t a * S8x1024x64.size a ≤ (i a).val ∧ (i a).val < win0_4.index t a * S8x1024x64.size a + S8x1024x64.size a := by
  show i ∈ ((View.whole main_v3_1).slice (win0_4.rect t)).set ↔ _
  rw [View.set_slice_whole, Rect.mem_set_unit]
  exact Iff.rfl

/-- Every index of the key array is in the block of the point that holds its row. -/
theorem keys_cover (i : S8x65536x64.Idx) : ∃ t : Fin cfg0.N, (cfg0.win 4).flush t = true ∧ i ∈ ((cfg0.win 4).blk t).view.set := by
  have hi0 : (i 0).val < 8 := (i 0).isLt
  have hi1 : (i 1).val < 65536 := (i 1).isLt
  have hi2 : (i 2).val < 64 := (i 2).isLt
  obtain ⟨t, ht⟩ := point_of_row (i 1).val hi1
  obtain ⟨-, -, -, e0, e1, e2, -⟩ := output_indices t
  refine ⟨t, flush0_4 t, ?_⟩
  rw [mem_key_block]
  intro a
  match a with
  | ⟨0, _⟩ => show win0_4.index t (0 : Fin 3) * 8 ≤ (i 0).val ∧ (i 0).val < win0_4.index t (0 : Fin 3) * 8 + 8; rw [e0]; omega
  | ⟨1, _⟩ => show win0_4.index t (1 : Fin 3) * 1024 ≤ (i 1).val ∧ (i 1).val < win0_4.index t (1 : Fin 3) * 1024 + 1024; rw [e1]; omega
  | ⟨2, _⟩ => show win0_4.index t (2 : Fin 3) * 64 ≤ (i 2).val ∧ (i 2).val < win0_4.index t (2 : Fin 3) * 64 + 64; rw [e2]; omega

/-- The key array after the run. -/
theorem keys_final (c : Dev nD) : (dats m 0 c).arrAt 4 cfg0.N = (keys (argX m c) (argWkv m c) (argBkv m c) : S8x65536x64.Idx → EReal) :=
  (dats m 0 c).arrAt_eq_of_cover 4 (keys (argX m c) (argWkv m c) (argBkv m c) : S8x65536x64.Idx → EReal) (fun t _ => keys_flushed m c t) keys_cover

/-! ## Values -/

/-- Entry (h, r, d) of point t's value block is the value at (h, 1024·t + r, d). -/
theorem value_block (c : Dev nD) (t : Fin cfg0.N) (y : S8x1024x64.Idx) (i : S8x65536x64.Idx)
    (h0 : (i 0).val = (y 0).val) (h1 : (i 1).val = 1024 * t.val + (y 1).val) (h2 : (i 2).val = (y 2).val) :
    out0_5 (F := Ideal) (iblk m c 0 t) (iblk m c 1 t) (iblk m c 2 t) y = values (argX m c) (argWkv m c) (argBkv m c) i := by
  have hy0 : (y 0).val < 8 := (y 0).isLt
  have hy1 : (y 1).val < 1024 := (y 1).isLt
  have hy2 : (y 2).val < 64 := (y 2).isLt
  unfold out0_5
  refine (canon5_eq _ _ _ y).trans ?_
  simp only [View.ld_unit_zero (S := S1024x512) zeros2, View.ld_unit_zero (S := S512x1536) zeros2, View.ld_unit_zero (S := S1536) zeros1]
  have e : ix5_0 y = ix2 (⟨(y 1).val, hy1⟩ : Fin 1024) (⟨(y 0).val * 64 + (y 2).val + 1024, by omega⟩ : Fin 1536) := funext fun a => by
    match a with
    | ⟨0, _⟩ => rfl
    | ⟨1, _⟩ => rfl
  show k0_pay5 (F := Ideal) (iblk m c 0 t) (iblk m c 1 t) (iblk m c 2 t) (ix5_0 y) = _
  rw [e]
  refine (point_entry m c t _ _ ⟨(i 1).val, (i 1).isLt⟩ h1).trans ?_
  unfold values affineKV
  refine congrArg₂ (· + ·) ?_ ?_
  · refine Finset.sum_congr rfl fun k _ => ?_
    exact congrArg (argX m c (ix2 _ k) * ·) (fusedWeightT_kv m c k _ (valueCol ⟨(i 0).val, (i 0).isLt⟩ ⟨(i 2).val, (i 2).isLt⟩)
      (by show (y 0).val * 64 + (y 2).val + 1024 = 512 + (512 + (i 0).val * 64 + (i 2).val); omega))
  · exact fusedBias_kv m c _ (valueCol ⟨(i 0).val, (i 0).isLt⟩ ⟨(i 2).val, (i 2).isLt⟩)
      (by show (y 0).val * 64 + (y 2).val + 1024 = 512 + (512 + (i 0).val * 64 + (i 2).val); omega)

/-- What point t writes back to the values is its block of the value array. -/
theorem values_flushed (c : Dev nD) (t : Fin cfg0.N) :
    (dats m 0 c).flushed 5 t = ((cfg0.win 5).blk t).view.read (Elt Ideal) (values (argX m c) (argWkv m c) (argBkv m c) : S8x65536x64.Idx → EReal) := by
  obtain ⟨-, -, -, -, -, -, e0, e1, e2⟩ := output_indices t
  rw [flushed5]
  funext y
  show out0_5 (F := Ideal) (iblk m c 0 t) (iblk m c 1 t) (iblk m c 2 t) y = values (argX m c) (argWkv m c) (argBkv m c) (((cfg0.win 5).blk t).view.emb y)
  refine value_block m c t y _ ?_ ?_ ?_
  · show win0_5.index t (0 : Fin 3) * 8 + 1 * (y 0).val = (y 0).val; rw [e0]; omega
  · show win0_5.index t (1 : Fin 3) * 1024 + 1 * (y 1).val = 1024 * t.val + (y 1).val; rw [e1]; omega
  · show win0_5.index t (2 : Fin 3) * 64 + 1 * (y 2).val = (y 2).val; rw [e2]; omega

/-- An index is in point t's value block iff each coordinate is in the block's range. -/
theorem mem_value_block (t : Fin cfg0.N) (i : S8x65536x64.Idx) :
    i ∈ ((cfg0.win 5).blk t).view.set ↔ ∀ a : Fin 3, win0_5.index t a * S8x1024x64.size a ≤ (i a).val ∧ (i a).val < win0_5.index t a * S8x1024x64.size a + S8x1024x64.size a := by
  show i ∈ ((View.whole main_v3_2).slice (win0_5.rect t)).set ↔ _
  rw [View.set_slice_whole, Rect.mem_set_unit]
  exact Iff.rfl

/-- Every index of the value array is in the block of the point that holds its row. -/
theorem values_cover (i : S8x65536x64.Idx) : ∃ t : Fin cfg0.N, (cfg0.win 5).flush t = true ∧ i ∈ ((cfg0.win 5).blk t).view.set := by
  have hi0 : (i 0).val < 8 := (i 0).isLt
  have hi1 : (i 1).val < 65536 := (i 1).isLt
  have hi2 : (i 2).val < 64 := (i 2).isLt
  obtain ⟨t, ht⟩ := point_of_row (i 1).val hi1
  obtain ⟨-, -, -, -, -, -, e0, e1, e2⟩ := output_indices t
  refine ⟨t, flush0_5 t, ?_⟩
  rw [mem_value_block]
  intro a
  match a with
  | ⟨0, _⟩ => show win0_5.index t (0 : Fin 3) * 8 ≤ (i 0).val ∧ (i 0).val < win0_5.index t (0 : Fin 3) * 8 + 8; rw [e0]; omega
  | ⟨1, _⟩ => show win0_5.index t (1 : Fin 3) * 1024 ≤ (i 1).val ∧ (i 1).val < win0_5.index t (1 : Fin 3) * 1024 + 1024; rw [e1]; omega
  | ⟨2, _⟩ => show win0_5.index t (2 : Fin 3) * 64 ≤ (i 2).val ∧ (i 2).val < win0_5.index t (2 : Fin 3) * 64 + 64; rw [e2]; omega

/-- The value array after the run. -/
theorem values_final (c : Dev nD) : (dats m 0 c).arrAt 5 cfg0.N = (values (argX m c) (argWkv m c) (argBkv m c) : S8x65536x64.Idx → EReal) :=
  (dats m 0 c).arrAt_eq_of_cover 5 (values (argX m c) (argWkv m c) (argBkv m c) : S8x65536x64.Idx → EReal) (fun t _ => values_flushed m c t) values_cover

/-! ## The run -/

/-- Every weakly fair execution of the idealized kernel ends with the three results at the head-major
    projections of the arguments, and the arguments unchanged. -/
theorem run : θ_run defs (onTc (τ := τ) (main (F := Ideal))) ⟨m, fun _ => 0, ρ⟩ fun r => ∀ c : Dev nD,
      r.2.mem ((c : Thread nD τ).loc main_v3_0) = (queries (argX m c) (argWq m c) (argBq m c) : S8x65536x64.Idx → EReal)
      ∧ r.2.mem ((c : Thread nD τ).loc main_v3_1) = (keys (argX m c) (argWkv m c) (argBkv m c) : S8x65536x64.Idx → EReal)
      ∧ r.2.mem ((c : Thread nD τ).loc main_v3_2) = (values (argX m c) (argWkv m c) (argBkv m c) : S8x65536x64.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (queries_final m c), (h c).2.1.trans (keys_final m c),
      (h c).2.2.1.trans (values_final m c), (h c).2.2.2⟩)
    (run_blocks m ρ)

end Cert.KernelIdeal.Heads

end
-- ==== Proof.ReferenceHeads.lean ====
/-
  The reference computes the head-major projections.

  Each result of the reference is a matrix product with a transposed weight, a bias row added, then a
  reshape of the 512 (or 1024) columns into (half,) head and lane and a transpose that brings the head in
  front. Read at an index (h, n, d), the layout steps only move the index: the row is n and the column
  64·h + d (plus 512 for the second half), and what is read there is ∑ₖ x(n, k) · W(col, k) + b(col).
-/
import proofs.«133860_j17575006175259_1_alg».proof.Proof.Gen.ReferenceIdeal.Read
import proofs.«133860_j17575006175259_1_alg».proof.Proof.HeadProjection

noncomputable section

namespace Cert.ReferenceIdeal.Heads

open Cert.ReferenceIdeal Cert.ReferenceIdeal.Gen Cert.ReferenceIdeal.Read Idealize.ShloMosaic Idealize.ShloMosaic.ValueIdx
open Cert.HeadProjection

/-! ## Where the layout steps send an index (h, n, d) -/

/-- Queries: un-transposed and flattened, (h, n, d) is entry (n, 64·h + d) of the projection. -/
theorem q_entry (i : S8x65536x64.Idx) :
    idx_main_v5 (idx_main_v6 i) = ix2 (⟨(i 1).val, (i 1).isLt⟩ : Fin 65536) (headCol ⟨(i 0).val, (i 0).isLt⟩ ⟨(i 2).val, (i 2).isLt⟩) := by
  have h0 : (i 0).val < 8 := (i 0).isLt
  have h1 : (i 1).val < 65536 := (i 1).isLt
  have h2 : (i 2).val < 64 := (i 2).isLt
  funext a
  apply Fin.ext
  match a with
  | ⟨0, _⟩ => show (((i 1).val * 8 + (i 0).val) * 64 + (i 2).val) / 512 = (i 1).val; omega
  | ⟨1, _⟩ => show (((i 1).val * 8 + (i 0).val) * 64 + (i 2).val) % 512 = (i 0).val * 64 + (i 2).val; omega

/-- Keys: (h, n, d) is entry (n, 64·h + d) of the key-value projection. -/
theorem k_entry (i : S8x65536x64.Idx) :
    idx_main_v12 (idx_main_v13 (idx_main_v14 (idx_main_v15 i))) = ix2 (⟨(i 1).val, (i 1).isLt⟩ : Fin 65536) (keyCol ⟨(i 0).val, (i 0).isLt⟩ ⟨(i 2).val, (i 2).isLt⟩) := by
  have h0 : (i 0).val < 8 := (i 0).isLt
  have h1 : (i 1).val < 65536 := (i 1).isLt
  have h2 : (i 2).val < 64 := (i 2).isLt
  funext a
  apply Fin.ext
  match a with
  | ⟨0, _⟩ => show ((((((i 1).val * 8 + (i 0).val) * 64 + (i 2).val) / 512 * 2 + 0) * 8 + (((i 1).val * 8 + (i 0).val) * 64 + (i 2).val) / 64 % 8) * 64 + (((i 1).val * 8 + (i 0).val) * 64 + (i 2).val) % 64) / 1024 = (i 1).val; omega
  | ⟨1, _⟩ => show ((((((i 1).val * 8 + (i 0).val) * 64 + (i 2).val) / 512 * 2 + 0) * 8 + (((i 1).val * 8 + (i 0).val) * 64 + (i 2).val) / 64 % 8) * 64 + (((i 1).val * 8 + (i 0).val) * 64 + (i 2).val) % 64) % 1024 = (i 0).val * 64 + (i 2).val; omega

/-- Values: (h, n, d) is entry (n, 512 + 64·h + d) of the key-value projection. -/
theorem v_entry (i : S8x65536x64.Idx) :
    idx_main_v12 (idx_main_v16 (idx_main_v17 (idx_main_v18 i))) = ix2 (⟨(i 1).val, (i 1).isLt⟩ : Fin 65536) (valueCol ⟨(i 0).val, (i 0).isLt⟩ ⟨(i 2).val, (i 2).isLt⟩) := by
  have h0 : (i 0).val < 8 := (i 0).isLt
  have h1 : (i 1).val < 65536 := (i 1).isLt
  have h2 : (i 2).val < 64 := (i 2).isLt
  funext a
  apply Fin.ext
  match a with
  | ⟨0, _⟩ => show ((((((i 1).val * 8 + (i 0).val) * 64 + (i 2).val) / 512 * 2 + (1 + 0)) * 8 + (((i 1).val * 8 + (i 0).val) * 64 + (i 2).val) / 64 % 8) * 64 + (((i 1).val * 8 + (i 0).val) * 64 + (i 2).val) % 64) / 1024 = (i 1).val; omega
  | ⟨1, _⟩ => show ((((((i 1).val * 8 + (i 0).val) * 64 + (i 2).val) / 512 * 2 + (1 + 0)) * 8 + (((i 1).val * 8 + (i 0).val) * 64 + (i 2).val) / 64 % 8) * 64 + (((i 1).val * 8 + (i 0).val) * 64 + (i 2).val) % 64) % 1024 = 512 + (i 0).val * 64 + (i 2).val; omega

/-! ## The projections at an entry -/

/-- Entry (n, j) of x·W_qᵀ + b_q as the reference computes it. -/
theorem q_affine (x0 : (⟨S65536x512, .f32⟩ : BufTy).Contents (Elt Ideal)) (x1 : (⟨S512x512, .f32⟩ : BufTy).Contents (Elt Ideal))
    (x2 : (⟨S512, .f32⟩ : BufTy).Contents (Elt Ideal)) (n : Fin 65536) (j : Fin 512) :
    val_main_v4 (F := Ideal) x0 x1 x2 (ix2 n j) = affineQ x0 x1 x2 n j := by
  rw [val_main_v4_apply, val_main_v1_apply, val_main_v3_apply, val_main_v2_apply]
  unfold affineQ
  show (∑ k : Fin 512, _) + _ = (∑ k : Fin 512, _) + _
  congr 1
  · refine Finset.sum_congr rfl fun k _ => ?_
    have el : lidx_main_v1 (ix2 n j) k = ix2 n k := funext fun a => by
      match a with
      | ⟨0, _⟩ => rfl
      | ⟨1, _⟩ => rfl
    have er : idx_main_v0 (ridx_main_v1 (ix2 n j) k) = ix2 j k := funext fun a => by
      match a with
      | ⟨0, _⟩ => rfl
      | ⟨1, _⟩ => rfl
    rw [val_main_v0_apply, el, er]
  · exact congrArg x2 (funext fun a => by
      match a with
      | ⟨0, _⟩ => rfl)

/-- Entry (n, j) of x·W_kvᵀ + b_kv as the reference computes it. -/
theorem kv_affine (x0 : (⟨S65536x512, .f32⟩ : BufTy).Contents (Elt Ideal)) (x3 : (⟨S1024x512, .f32⟩ : BufTy).Contents (Elt Ideal))
    (x4 : (⟨S1024, .f32⟩ : BufTy).Contents (Elt Ideal)) (n : Fin 65536) (j : Fin 1024) :
    val_main_v11 (F := Ideal) x0 x3 x4 (ix2 n j) = affineKV x0 x3 x4 n j := by
  rw [val_main_v11_apply, val_main_v8_apply, val_main_v10_apply, val_main_v9_apply]
  unfold affineKV
  show (∑ k : Fin 512, _) + _ = (∑ k : Fin 512, _) + _
  congr 1
  · refine Finset.sum_congr rfl fun k _ => ?_
    have el : lidx_main_v8 (ix2 n j) k = ix2 n k := funext fun a => by
      match a with
      | ⟨0, _⟩ => rfl
      | ⟨1, _⟩ => rfl
    have er : idx_main_v7 (ridx_main_v8 (ix2 n j) k) = ix2 j k := funext fun a => by
      match a with
      | ⟨0, _⟩ => rfl
      | ⟨1, _⟩ => rfl
    rw [val_main_v7_apply, el, er]
  · exact congrArg x4 (funext fun a => by
      match a with
      | ⟨0, _⟩ => rfl)

/-! ## The three results -/

theorem queries_eq (x0 : (⟨S65536x512, .f32⟩ : BufTy).Contents (Elt Ideal)) (x1 : (⟨S512x512, .f32⟩ : BufTy).Contents (Elt Ideal))
    (x2 : (⟨S512, .f32⟩ : BufTy).Contents (Elt Ideal)) :
    val_main_v6 (F := Ideal) x0 x1 x2 = queries x0 x1 x2 := by
  funext i
  rw [val_main_v6_apply, val_main_v5_apply, q_entry, q_affine]
  rfl

theorem keys_eq (x0 : (⟨S65536x512, .f32⟩ : BufTy).Contents (Elt Ideal)) (x3 : (⟨S1024x512, .f32⟩ : BufTy).Contents (Elt Ideal))
    (x4 : (⟨S1024, .f32⟩ : BufTy).Contents (Elt Ideal)) :
    val_main_v15 (F := Ideal) x0 x3 x4 = keys x0 x3 x4 := by
  funext i
  rw [val_main_v15_apply, val_main_v14_apply, val_main_v13_apply, val_main_v12_apply, k_entry, kv_affine]
  rfl

theorem values_eq (x0 : (⟨S65536x512, .f32⟩ : BufTy).Contents (Elt Ideal)) (x3 : (⟨S1024x512, .f32⟩ : BufTy).Contents (Elt Ideal))
    (x4 : (⟨S1024, .f32⟩ : BufTy).Contents (Elt Ideal)) :
    val_main_v18 (F := Ideal) x0 x3 x4 = values x0 x3 x4 := by
  funext i
  rw [val_main_v18_apply, val_main_v17_apply, val_main_v16_apply, val_main_v12_apply, v_entry, kv_affine]
  rfl

end Cert.ReferenceIdeal.Heads

end
-- ==== Proof.lean ====
/-
  A fused query / key / value projection with the head split done in the kernel, against the jnp reference.

  The kernel multiplies each block of 1024 rows of x by the transposed stack [W_q; W_kv], adds the stacked bias,
  and stores column block 64·h … 64·h + 63 of the first, second and third 512 columns as head h of the query, key
  and value results. The reference computes x·W_qᵀ + b_q and x·W_kvᵀ + b_kv, reshapes the columns into
  (half,) head and lane, and transposes the head to the front. Over the extended reals a change of float format is
  the identity and both matrix products are the same finite sums, so both programs end with, at (h, n, d),
      ∑ₖ x(n, k) · W(col, k) + b(col)
  where (W, b, col) is (W_q, b_q, 64·h + d) for the queries, (W_kv, b_kv, 64·h + d) for the keys and
  (W_kv, b_kv, 512 + 64·h + d) for the values. No algebraic law beyond reading both sides at an index is needed,
  so the precondition is never opened.

  Modules: HeadProjection (the three functions), FusedProjection (the body's value at an entry), Operands (the
  staged blocks as entries of the arguments), KernelHeads (the kernel's result arrays), ReferenceHeads (the
  reference's results).
-/
import proofs.«133860_j17575006175259_1_alg».proof.Defs
import proofs.«133860_j17575006175259_1_alg».proof.Proof.Gen.Kernel
import proofs.«133860_j17575006175259_1_alg».proof.Proof.Gen.Kernel.Skeleton
import proofs.«133860_j17575006175259_1_alg».proof.Proof.Gen.Kernel.Launch
import proofs.«133860_j17575006175259_1_alg».proof.Proof.Gen.Kernel.Points
import proofs.«133860_j17575006175259_1_alg».proof.Proof.Gen.Kernel.Frame
import proofs.«133860_j17575006175259_1_alg».proof.Proof.Gen.KernelIdeal
import proofs.«133860_j17575006175259_1_alg».proof.Proof.Gen.KernelIdeal.Skeleton
import proofs.«133860_j17575006175259_1_alg».proof.Proof.Gen.KernelIdeal.Launch
import proofs.«133860_j17575006175259_1_alg».proof.Proof.Gen.KernelIdeal.Points
import proofs.«133860_j17575006175259_1_alg».proof.Proof.Gen.KernelIdeal.Frame
import proofs.«133860_j17575006175259_1_alg».proof.Proof.Gen.ReferenceIdeal
import proofs.«133860_j17575006175259_1_alg».proof.Proof.Gen.Pre_finite_inputs
import proofs.«133860_j17575006175259_1_alg».proof.Proof.Gen.KernelIdeal.Value
import proofs.«133860_j17575006175259_1_alg».proof.Proof.Gen.ReferenceIdeal.Run
import proofs.«133860_j17575006175259_1_alg».proof.Proof.Gen.ReferenceIdeal.Read
import proofs.«133860_j17575006175259_1_alg».proof.Proof.HeadProjection
import proofs.«133860_j17575006175259_1_alg».proof.Proof.KernelHeads
import proofs.«133860_j17575006175259_1_alg».proof.Proof.ReferenceHeads
import Idealize.ShloMosaic.Adequacy
import Idealize.ShloMosaic.Init

noncomputable section

namespace Cert.Proof

open Idealize.ShloMosaic Idealize.ShloMosaic.TcCoe Idealize.SL.Sem
open Cert.HeadProjection

/-- The kernel as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its three results dropped, is its frame. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both idealized programs end with the queries, keys and values at the head-major projections of arguments
    that agree: the kernel by its row blocks (KernelHeads), the reference by reading its layout steps at an
    index (ReferenceHeads). -/
theorem algebraic : Cert.algebraic_KernelIdeal_ReferenceIdeal := by
  intro m ρ m' ρ' _ hagree
  refine ⟨fun c => (queries (Cert.KernelIdeal.Heads.argX m c) (Cert.KernelIdeal.Heads.argWq m c) (Cert.KernelIdeal.Heads.argBq m c) : Cert.KernelIdeal.S8x65536x64.Idx → EReal),
    fun c => (keys (Cert.KernelIdeal.Heads.argX m c) (Cert.KernelIdeal.Heads.argWkv m c) (Cert.KernelIdeal.Heads.argBkv m c) : Cert.KernelIdeal.S8x65536x64.Idx → EReal),
    fun c => (values (Cert.KernelIdeal.Heads.argX m c) (Cert.KernelIdeal.Heads.argWkv m c) (Cert.KernelIdeal.Heads.argBkv m c) : Cert.KernelIdeal.S8x65536x64.Idx → EReal),
    Cert.KernelIdeal.Heads.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · refine (Cert.ReferenceIdeal.Read.val_main_v6_eq _ _ _).trans ((Cert.ReferenceIdeal.Heads.queries_eq _ _ _).trans ?_)
    rw [a0, a1, a2]
  · refine (Cert.ReferenceIdeal.Read.val_main_v15_eq _ _ _).trans ((Cert.ReferenceIdeal.Heads.keys_eq _ _ _).trans ?_)
    rw [a0, a3, a4]
  · refine (Cert.ReferenceIdeal.Read.val_main_v18_eq _ _ _).trans ((Cert.ReferenceIdeal.Heads.values_eq _ _ _).trans ?_)
    rw [a0, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
